-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x8192 : Shape := ⟨3, ![16, 64, 8192]⟩
abbrev S16x8192x64 : Shape := ⟨3, ![16, 8192, 64]⟩
abbrev S_ : Shape := ⟨0, ![]⟩

class Facts : Prop where
  bcast_S_S16x64x8192 : S_.BroadcastsInDim S16x64x8192 (![] : Fin 0 → Fin S16x64x8192.rank)
  reducesTo_S16x64x8192_S_d0_1_2 : S16x64x8192.ReducesTo [0, 1, 2] S_
  h_S_ : 0 < S_.numel
  bcast_S_S16x8192x64 : S_.BroadcastsInDim S16x8192x64 (![] : Fin 0 → Fin S16x8192x64.rank)
  reducesTo_S16x8192x64_S_d0_1_2 : S16x8192x64.ReducesTo [0, 1, 2] S_

variable [Facts]

def fn {F : FTy → Type} [FloatOps F] (main_arg0 : FVec F S16x64x8192 .f32) (main_arg1 : FVec F S16x8192x64 .f32) (main_arg2 : FVec F S16x8192x64 .f32) : IVec S_ 1 :=
  let main_v0 : FVec F S16x64x8192 .f32 := Host.absf main_arg0
  let main_cst : FVec F S_ .f32 := constant S_ .f32 0x7F800000#32
  let main_v1 : FVec F S16x64x8192 .f32 := broadcastInDim S16x64x8192 ![] bcast_S_S16x64x8192 main_cst
  let main_v2 : IVec S16x64x8192 1 := cmpf .olt main_v0 main_v1
  let main_c : IVec S_ 1 := constantI S_ 1 1#1
  let main_v3 : IVec S_ 1 := (fun x v => Host.reduce IntOp.andi x v reducesTo_S16x64x8192_S_d0_1_2 h_S_) main_v2 main_c
  let main_v4 : FVec F S16x8192x64 .f32 := Host.absf main_arg1
  let main_cst_0 : FVec F S_ .f32 := constant S_ .f32 0x7F800000#32
  let main_v5 : FVec F S16x8192x64 .f32 := broadcastInDim S16x8192x64 ![] bcast_S_S16x8192x64 main_cst_0
  let main_v6 : IVec S16x8192x64 1 := cmpf .olt main_v4 main_v5
  let main_c_1 : IVec S_ 1 := constantI S_ 1 1#1
  let main_v7 : IVec S_ 1 := (fun x v => Host.reduce IntOp.andi x v reducesTo_S16x8192x64_S_d0_1_2 h_S_) main_v6 main_c_1
  let main_v8 : IVec S_ 1 := andi main_v3 main_v7
  let main_v9 : FVec F S16x8192x64 .f32 := Host.absf main_arg2
  let main_cst_2 : FVec F S_ .f32 := constant S_ .f32 0x7F800000#32
  let main_v10 : FVec F S16x8192x64 .f32 := broadcastInDim S16x8192x64 ![] bcast_S_S16x8192x64 main_cst_2
  let main_v11 : IVec S16x8192x64 1 := cmpf .olt main_v9 main_v10
  let main_c_3 : IVec S_ 1 := constantI S_ 1 1#1
  let main_v12 : IVec S_ 1 := (fun x v => Host.reduce IntOp.andi x v reducesTo_S16x8192x64_S_d0_1_2 h_S_) main_v11 main_c_3
  let main_v13 : IVec S_ 1 := andi main_v8 main_v12
  main_v13
-- ==== Kernel.lean ====
abbrev S16x64x8192 : Shape := ⟨3, ![16, 64, 8192]⟩
abbrev S16x8192x64 : Shape := ⟨3, ![16, 8192, 64]⟩
abbrev S1x64x8192 : Shape := ⟨3, ![1, 64, 8192]⟩
abbrev S1x8192x64 : Shape := ⟨3, ![1, 8192, 64]⟩
abbrev S8192x64 : Shape := ⟨2, ![8192, 64]⟩
abbrev S64x64 : Shape := ⟨2, ![64, 64]⟩
abbrev S64x8192 : Shape := ⟨2, ![64, 8192]⟩

abbrev nBuf : Space → Nat
  | .hbm => 4
  | .vmem => 8
  | .smem => 0
  | _ => 0

abbrev bufTy : (tb : Table) → Fin (tcTables nBuf tb) → BufTy
  | .hbm, ⟨0, _⟩ => ⟨S16x64x8192, .f32⟩
  | .hbm, ⟨1, _⟩ => ⟨S16x8192x64, .f32⟩
  | .hbm, ⟨2, _⟩ => ⟨S16x8192x64, .f32⟩
  | .hbm, ⟨3, _⟩ => ⟨S16x8192x64, .f32⟩
  | .local _ .vmem, ⟨0, _⟩ => ⟨S1x64x8192, .f32⟩
  | .local _ .vmem, ⟨1, _⟩ => ⟨S1x64x8192, .f32⟩
  | .local _ .vmem, ⟨2, _⟩ => ⟨S1x8192x64, .f32⟩
  | .local _ .vmem, ⟨3, _⟩ => ⟨S1x8192x64, .f32⟩
  | .local _ .vmem, ⟨4, _⟩ => ⟨S1x8192x64, .f32⟩
  | .local _ .vmem, ⟨5, _⟩ => ⟨S1x8192x64, .f32⟩
  | .local _ .vmem, ⟨6, _⟩ => ⟨S1x8192x64, .f32⟩
  | .local _ .vmem, ⟨7, _⟩ => ⟨S1x8192x64, .f32⟩
  | _, _ => ⟨S16x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  bitsLt_bf16_f32 : FTy.bits .bf16 < FTy.bits .f32
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  shapeCasts_S8192x64_S1x8192x64 : S8192x64.ShapeCasts S1x8192x64
  dot_S8192x64_S8192x64_S64x64_0_0_1_1_n_n_wf : DotDims.WF S8192x64 S8192x64 S64x64 [0] [0] [1] [1] [] []
  dot_S64x8192_S64x64_S8192x64_0_0_1_1_n_n_wf : DotDims.WF S64x8192 S64x64 S8192x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S16x64x8192.size a
  hwx0_0 : ∀ i : grid0.Coords, EltTy.bits .f32 = 32 ∨ (Rect.block (s := S16x64x8192) S1x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x64.size a ≤ S16x8192x64.size a
  hwx0_1 : ∀ i : grid0.Coords, EltTy.bits .f32 = 32 ∨ (Rect.block (s := S16x8192x64) S1x8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x64.size a ≤ S16x8192x64.size a
  hwx0_2 : ∀ i : grid0.Coords, EltTy.bits .f32 = 32 ∨ (Rect.block (s := S16x8192x64) S1x8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x64.size a ≤ S16x8192x64.size a
  hwx0_3 : ∀ i : grid0.Coords, EltTy.bits .f32 = 32 ∨ (Rect.block (s := S16x8192x64) S1x8192x64.size (cc0_transform_3 i) (hinb0_3 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf
def dot_S64x8192_S64x64_S8192x64_0_0_1_1_n_n : DotDims S64x8192 S64x64 S8192x64 where
  lhsContracting := [0]
  rhsContracting := [0]
  lhsNonContracting := [1]
  rhsNonContracting := [1]
  lhsBatch := []
  rhsBatch := []
  wf := dot_S64x8192_S64x64_S8192x64_0_0_1_1_n_n_wf

abbrev win0_0 : Pipeline.Window sig grid0 :=
  Pipeline.Window.ofSpec (Memref.whole main_arg0) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x8192 : Shape := ⟨3, ![16, 64, 8192]⟩
abbrev S16x8192x64 : Shape := ⟨3, ![16, 8192, 64]⟩
abbrev S16x64x64 : Shape := ⟨3, ![16, 64, 64]⟩

abbrev nBuf : Space → Nat
  | .hbm => 5
  | .vmem => 0
  | .smem => 0
  | _ => 0

abbrev bufTy : (tb : Table) → Fin (tcTables nBuf tb) → BufTy
  | .hbm, ⟨0, _⟩ => ⟨S16x64x8192, .f32⟩
  | .hbm, ⟨1, _⟩ => ⟨S16x8192x64, .f32⟩
  | .hbm, ⟨2, _⟩ => ⟨S16x8192x64, .f32⟩
  | .hbm, ⟨3, _⟩ => ⟨S16x64x64, .f32⟩
  | .hbm, ⟨4, _⟩ => ⟨S16x8192x64, .f32⟩
  | _, _ => ⟨S16x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16x8192x64_S16x8192x64_S16x64x64_1_1_2_2_0_0_wf : DotDims.WF S16x8192x64 S16x8192x64 S16x64x64 [1] [1] [2] [2] [0] [0]
  dot_S16x64x8192_S16x64x64_S16x8192x64_1_1_2_2_0_0_wf : DotDims.WF S16x64x8192 S16x64x64 S16x8192x64 [1] [1] [2] [2] [0] [0]

variable [Facts₀]

def dot_S16x8192x64_S16x8192x64_S16x64x64_1_1_2_2_0_0 : DotDims S16x8192x64 S16x8192x64 S16x64x64 where
  lhsContracting := [1]
  rhsContracting := [1]
  lhsNonContracting := [2]
  rhsNonContracting := [2]
  lhsBatch := [0]
  rhsBatch := [0]
  wf := dot_S16x8192x64_S16x8192x64_S16x64x64_1_1_2_2_0_0_wf
def dot_S16x64x8192_S16x64x64_S16x8192x64_1_1_2_2_0_0 : DotDims S16x64x8192 S16x64x64 S16x8192x64 where
  lhsContracting := [1]
  rhsContracting := [1]
  lhsNonContracting := [2]
  rhsNonContracting := [2]
  lhsBatch := [0]
  rhsBatch := [0]
  wf := dot_S16x64x8192_S16x64x64_S16x8192x64_1_1_2_2_0_0_wf

class Facts : Prop extends Facts₀ where

variable [Facts]
-- ==== Proof.Spec.lean ====
/-
  The function both programs compute, on the extended reals.

  For a batch `b`, the small matrix `(kᵀ v)[b] : 64 × 64` has entries
  `ktv k v b κ ν = ∑ n, k[b, n, κ] · v[b, n, ν]`, a sum over the 8192 sequence positions, and the result is
  `out[b, n, ν] = ∑ κ, q[b, κ, n] · ktv k v b κ ν`, a sum over the 64 key channels (`q` is stored channel-first).
  Both programs form the inner sum first and the outer sum over it, so no distributive law is needed and the
  infinities of the extended reals play no part.
-/
import Idealize.ShloMosaic.PureOps.Ideal
import Idealize.ShloMosaic.Lib.ValueIdx

noncomputable section

open scoped BigOperators
open Idealize.ShloMosaic Idealize.ShloMosaic.ValueIdx

namespace Cert.LinearAttention

/-- Channel-first queries `[16, 64, 8192]`. -/
abbrev QShape : Shape := ⟨3, ![16, 64, 8192]⟩
/-- Keys, values and the result `[16, 8192, 64]`. -/
abbrev KVShape : Shape := ⟨3, ![16, 8192, 64]⟩

/-- Entry `(κ, ν)` of `kᵀ v` in batch `b`: the keys' channel `κ` against the values' channel `ν`, summed over the
    sequence. -/
def ktv (k v : KVShape.Idx → EReal) (b : Fin 16) (κ ν : Fin 64) : EReal :=
  ∑ n : Fin 8192, k (ix3 b n κ) * v (ix3 b n ν)

/-- Entry `(b, n, ν)` of the result: position `n`'s query against `kᵀ v`, summed over the key channels. -/
def outAt (q : QShape.Idx → EReal) (k v : KVShape.Idx → EReal) (b : Fin 16) (n : Fin 8192) (ν : Fin 64) : EReal :=
  ∑ κ : Fin 64, q (ix3 b κ n) * ktv k v b κ ν

/-- The whole result array. -/
def out (q : QShape.Idx → EReal) (k v : KVShape.Idx → EReal) : KVShape.Idx → EReal :=
  fun i => outAt q k v (i 0) (i 1) (i 2)

theorem out_ix3 (q : QShape.Idx → EReal) (k v : KVShape.Idx → EReal) (b : Fin 16) (n : Fin 8192) (ν : Fin 64) :
    out q k v (ix3 b n ν) = outAt q k v b n ν := rfl

end Cert.LinearAttention

end
-- ==== Proof.RefValue.lean ====
/-
  The reference's two batched products are the specification.

  The first `dot_general` contracts the sequence axis of the keys against that of the values inside each batch, which
  is `ktv`; the second contracts the channel axis of the channel-first queries against the rows of that product, which
  is `outAt`. Read at an index, each is a finite sum whose operand indices are the specification's, coordinate by
  coordinate.
-/
import proofs.«175009_j2130303779058_1_alg».proof.Proof.Gen.ReferenceIdeal.Read
import proofs.«175009_j2130303779058_1_alg».proof.Proof.Spec

noncomputable section

open scoped BigOperators
open Idealize.ShloMosaic Idealize.ShloMosaic.ValueIdx

namespace Cert.ReferenceIdeal.RefValue

open Cert.ReferenceIdeal Cert.ReferenceIdeal.Read Cert.LinearAttention

/-- The first product at `(b, κ, ν)` is `ktv` there. -/
theorem ktv_stage (k v : KVShape.Idx → EReal) (b : Fin 16) (κ ν : Fin 64) :
    val_main_v0 (F := Ideal) k v (ix3 b κ ν) = ktv k v b κ ν := by
  rw [val_main_v0_apply]
  unfold ktv
  refine Finset.sum_congr rfl fun n _ => ?_
  have el : lidx_main_v0 (ix3 b κ ν) n = ix3 b n κ :=
    funext fun a => by match a with | ⟨0, _⟩ => rfl | ⟨1, _⟩ => rfl | ⟨2, _⟩ => rfl
  have er : ridx_main_v0 (ix3 b κ ν) n = ix3 b n ν :=
    funext fun a => by match a with | ⟨0, _⟩ => rfl | ⟨1, _⟩ => rfl | ⟨2, _⟩ => rfl
  rw [el, er]

/-- The reference's result array is `out` of its three arguments. -/
theorem result_eq (q : QShape.Idx → EReal) (k v : KVShape.Idx → EReal) :
    val_main_v1 (F := Ideal) q k v = out q k v := by
  funext i
  obtain ⟨b, n, ν, rfl⟩ : ∃ (b : Fin 16) (n : Fin 8192) (ν : Fin 64), i = ix3 b n ν := ⟨i 0, i 1, i 2, eq_ix3 i⟩
  rw [val_main_v1_apply, out_ix3]
  unfold outAt
  refine Finset.sum_congr rfl fun κ _ => ?_
  have el : lidx_main_v1 (ix3 b n ν) κ = ix3 b κ n :=
    funext fun a => by match a with | ⟨0, _⟩ => rfl | ⟨1, _⟩ => rfl | ⟨2, _⟩ => rfl
  have er : ridx_main_v1 (ix3 b n ν) κ = ix3 b κ ν :=
    funext fun a => by match a with | ⟨0, _⟩ => rfl | ⟨1, _⟩ => rfl | ⟨2, _⟩ => rfl
  rw [el, er, ktv_stage]

end Cert.ReferenceIdeal.RefValue

end
-- ==== Proof.Payload.lean ====
/-
  The body's one stored value, read at an index.

  The body casts the key and value blocks `[1, 8192, 64]` to matrices `[8192, 64]`, multiplies them on the matrix unit
  with the sequence axis contracted into a zero accumulator (a `64 × 64` matrix), casts the query block
  `[1, 64, 8192]` to a matrix `[64, 8192]`, multiplies it against that product with the channel axis contracted into a
  zero accumulator (an `8192 × 64` matrix), and casts the result back to `[1, 8192, 64]`. On the extended reals the
  changes of float format are the identity and a product into a zero accumulator is the plain sum of products, so
  the stored value at `(u, n, ν)` is `∑ κ, q[0, κ, n] · ∑ n', k[0, n', κ] · v[0, n', ν]`.
-/
import proofs.«175009_j2130303779058_1_alg».proof.Proof.Gen.KernelIdeal.Skeleton
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ## The first product: keys against values, the sequence axis contracted -/

theorem kv_lhs_0 (i : S64x64.Idx) (s : dot_S8192x64_S8192x64_S64x64_0_0_1_1_n_n.contr.Idx) :
    (dot_S8192x64_S8192x64_S64x64_0_0_1_1_n_n.lhsIdx i s 0).val = (s ⟨0, by decide⟩).val :=
  dot_S8192x64_S8192x64_S64x64_0_0_1_1_n_n.lhsIdx_val_of_single rfl i s
theorem kv_lhs_1 (i : S64x64.Idx) (s : dot_S8192x64_S8192x64_S64x64_0_0_1_1_n_n.contr.Idx) :
    (dot_S8192x64_S8192x64_S64x64_0_0_1_1_n_n.lhsIdx i s 1).val = (i 0).val := by
  unfold DotDims.lhsIdx
  rw [dif_neg (show ¬(1 : Fin S8192x64.rank) ∈ dot_S8192x64_S8192x64_S64x64_0_0_1_1_n_n.lhsBatch by decide), dif_pos (show (1 : Fin S8192x64.rank) ∈ dot_S8192x64_S8192x64_S64x64_0_0_1_1_n_n.lhsNonContracting by decide)]
  rfl
theorem kv_rhs_0 (i : S64x64.Idx) (s : dot_S8192x64_S8192x64_S64x64_0_0_1_1_n_n.contr.Idx) :
    (dot_S8192x64_S8192x64_S64x64_0_0_1_1_n_n.rhsIdx i s 0).val = (s ⟨0, by decide⟩).val :=
  dot_S8192x64_S8192x64_S64x64_0_0_1_1_n_n.rhsIdx_val_of_single rfl i s
theorem kv_rhs_1 (i : S64x64.Idx) (s : dot_S8192x64_S8192x64_S64x64_0_0_1_1_n_n.contr.Idx) :
    (dot_S8192x64_S8192x64_S64x64_0_0_1_1_n_n.rhsIdx i s 1).val = (i 1).val := by
  unfold DotDims.rhsIdx
  rw [dif_neg (show ¬(1 : Fin S8192x64.rank) ∈ dot_S8192x64_S8192x64_S64x64_0_0_1_1_n_n.rhsBatch by decide), dif_pos (show (1 : Fin S8192x64.rank) ∈ dot_S8192x64_S8192x64_S64x64_0_0_1_1_n_n.rhsNonContracting by decide)]
  rfl

/-- Entry `(κ, ν)` of the keys-against-values product is the sum over the rows `n` of `a[n, κ] · b[n, ν]`. -/
theorem kv_product_apply (a b : FVec Ideal S8192x64 .bf16) (κ ν : Fin 64) :
    matmul dot_S8192x64_S8192x64_S64x64_0_0_1_1_n_n none a b (constant (F := Ideal) S64x64 .f32 0x00000000#32) (ix2 κ ν)
      = ∑ n : Fin 8192, a (ix2 n κ) * b (ix2 n ν) := by
  simp only [matmul]
  rw [Ideal.matmul_constant_zero_apply, ← Equiv.sum_comp (contrEquiv1 dot_S8192x64_S8192x64_S64x64_0_0_1_1_n_n 8192 rfl rfl).symm]
  refine Finset.sum_congr rfl fun n _ => ?_
  have hn := contrEquiv1_symm_val dot_S8192x64_S8192x64_S64x64_0_0_1_1_n_n 8192 rfl rfl n
  have el : dot_S8192x64_S8192x64_S64x64_0_0_1_1_n_n.lhsIdx (ix2 κ ν) ((contrEquiv1 dot_S8192x64_S8192x64_S64x64_0_0_1_1_n_n 8192 rfl rfl).symm n) = ix2 n κ := funext fun a => Fin.ext (by
    match a with
    | ⟨0, _⟩ => exact (kv_lhs_0 _ _).trans hn
    | ⟨1, _⟩ => exact kv_lhs_1 _ _)
  have er : dot_S8192x64_S8192x64_S64x64_0_0_1_1_n_n.rhsIdx (ix2 κ ν) ((contrEquiv1 dot_S8192x64_S8192x64_S64x64_0_0_1_1_n_n 8192 rfl rfl).symm n) = ix2 n ν := funext fun a => Fin.ext (by
    match a with
    | ⟨0, _⟩ => exact (kv_rhs_0 _ _).trans hn
    | ⟨1, _⟩ => exact kv_rhs_1 _ _)
  rw [el, er]

/-! ## The second product: channel-first queries against that matrix, the channel axis contracted -/

theorem qm_lhs_0 (i : S8192x64.Idx) (s : dot_S64x8192_S64x64_S8192x64_0_0_1_1_n_n.contr.Idx) :
    (dot_S64x8192_S64x64_S8192x64_0_0_1_1_n_n.lhsIdx i s 0).val = (s ⟨0, by decide⟩).val :=
  dot_S64x8192_S64x64_S8192x64_0_0_1_1_n_n.lhsIdx_val_of_single rfl i s
theorem qm_lhs_1 (i : S8192x64.Idx) (s : dot_S64x8192_S64x64_S8192x64_0_0_1_1_n_n.contr.Idx) :
    (dot_S64x8192_S64x64_S8192x64_0_0_1_1_n_n.lhsIdx i s 1).val = (i 0).val := by
  unfold DotDims.lhsIdx
  rw [dif_neg (show ¬(1 : Fin S64x8192.rank) ∈ dot_S64x8192_S64x64_S8192x64_0_0_1_1_n_n.lhsBatch by decide), dif_pos (show (1 : Fin S64x8192.rank) ∈ dot_S64x8192_S64x64_S8192x64_0_0_1_1_n_n.lhsNonContracting by decide)]
  rfl
theorem qm_rhs_0 (i : S8192x64.Idx) (s : dot_S64x8192_S64x64_S8192x64_0_0_1_1_n_n.contr.Idx) :
    (dot_S64x8192_S64x64_S8192x64_0_0_1_1_n_n.rhsIdx i s 0).val = (s ⟨0, by decide⟩).val :=
  dot_S64x8192_S64x64_S8192x64_0_0_1_1_n_n.rhsIdx_val_of_single rfl i s
theorem qm_rhs_1 (i : S8192x64.Idx) (s : dot_S64x8192_S64x64_S8192x64_0_0_1_1_n_n.contr.Idx) :
    (dot_S64x8192_S64x64_S8192x64_0_0_1_1_n_n.rhsIdx i s 1).val = (i 1).val := by
  unfold DotDims.rhsIdx
  rw [dif_neg (show ¬(1 : Fin S64x64.rank) ∈ dot_S64x8192_S64x64_S8192x64_0_0_1_1_n_n.rhsBatch by decide), dif_pos (show (1 : Fin S64x64.rank) ∈ dot_S64x8192_S64x64_S8192x64_0_0_1_1_n_n.rhsNonContracting by decide)]
  rfl

/-- Entry `(n, ν)` of the queries-against-matrix product is the sum over the channels `κ` of `a[κ, n] · b[κ, ν]`. -/
theorem qm_product_apply (a : FVec Ideal S64x8192 .bf16) (b : FVec Ideal S64x64 .bf16) (n : Fin 8192) (ν : Fin 64) :
    matmul dot_S64x8192_S64x64_S8192x64_0_0_1_1_n_n none a b (constant (F := Ideal) S8192x64 .f32 0x00000000#32) (ix2 n ν)
      = ∑ κ : Fin 64, a (ix2 κ n) * b (ix2 κ ν) := by
  simp only [matmul]
  rw [Ideal.matmul_constant_zero_apply, ← Equiv.sum_comp (contrEquiv1 dot_S64x8192_S64x64_S8192x64_0_0_1_1_n_n 64 rfl rfl).symm]
  refine Finset.sum_congr rfl fun κ _ => ?_
  have hκ := contrEquiv1_symm_val dot_S64x8192_S64x64_S8192x64_0_0_1_1_n_n 64 rfl rfl κ
  have el : dot_S64x8192_S64x64_S8192x64_0_0_1_1_n_n.lhsIdx (ix2 n ν) ((contrEquiv1 dot_S64x8192_S64x64_S8192x64_0_0_1_1_n_n 64 rfl rfl).symm κ) = ix2 κ n := funext fun a => Fin.ext (by
    match a with
    | ⟨0, _⟩ => exact (qm_lhs_0 _ _).trans hκ
    | ⟨1, _⟩ => exact qm_lhs_1 _ _)
  have er : dot_S64x8192_S64x64_S8192x64_0_0_1_1_n_n.rhsIdx (ix2 n ν) ((contrEquiv1 dot_S64x8192_S64x64_S8192x64_0_0_1_1_n_n 64 rfl rfl).symm κ) = ix2 κ ν := funext fun a => Fin.ext (by
    match a with
    | ⟨0, _⟩ => exact (qm_rhs_0 _ _).trans hκ
    | ⟨1, _⟩ => exact qm_rhs_1 _ _)
  rw [el, er]

/-! ## The stored value -/

/-- The value the body stores, at `(u, n, ν)`, from the key, value and query blocks it loaded. -/
theorem stored_apply (xk xv : Vec Ideal S1x8192x64 .f32) (xq : Vec Ideal S1x64x8192 .f32) (u : Fin 1) (n : Fin 8192) (ν : Fin 64) :
    k0_pay1 (F := Ideal) xk xv xq (ix3 u n ν)
      = ∑ κ : Fin 64, xq (ix3 (0 : Fin 1) κ n) * ∑ n' : Fin 8192, xk (ix3 (0 : Fin 1) n' κ) * xv (ix3 (0 : Fin 1) n' ν) := by
  unfold k0_pay1
  rw [shapeCast_ab_1ab_apply, qm_product_apply]
  refine Finset.sum_congr rfl fun κ _ => ?_
  rw [truncf_apply, truncf_apply, shapeCast_1ab_ab_apply, kv_product_apply]
  refine congrArg _ (Finset.sum_congr rfl fun n' _ => ?_)
  rw [truncf_apply, truncf_apply, shapeCast_1ab_ab_apply, shapeCast_1ab_ab_apply]

end Cert.KernelIdeal.Payload

end
-- ==== Proof.Blocks.lean ====
/-
  From the grid's sixteen points to the whole result array.

  Point `t` of the grid works on batch `t`: every window's block at `t` is the slab `[t, :, :]` of its array. So the
  value the body stores at `(u, n, ν)`, computed from the three input blocks, is `out q k v` at `(t, n, ν)`; what
  point `t` writes back is batch `t` of `out q k v`; the sixteen slabs cover the array; and the array after the run is
  `out q k v`.
-/
import proofs.«175009_j2130303779058_1_alg».proof.Proof.Gen.KernelIdeal.Value
import proofs.«175009_j2130303779058_1_alg».proof.Proof.Payload
import proofs.«175009_j2130303779058_1_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.KernelIdeal.Payload Cert.LinearAttention

/-! ## The stored value as the specification, given what the blocks hold -/

/-- If the three loaded blocks are batch `b` of arrays `Aq`, `Ak`, `Av`, the stored value at `(u, n, ν)` is
    `out Aq Ak Av` at `(b, n, ν)`. -/
theorem stored_eq_out (Aq : QShape.Idx → EReal) (Ak Av : KVShape.Idx → EReal) (b : Fin 16)
    (xk xv : Vec Ideal S1x8192x64 .f32) (xq : Vec Ideal S1x64x8192 .f32)
    (hq : ∀ (κ : Fin 64) (n : Fin 8192), xq (ix3 (0 : Fin 1) κ n) = Aq (ix3 b κ n))
    (hk : ∀ (n : Fin 8192) (κ : Fin 64), xk (ix3 (0 : Fin 1) n κ) = Ak (ix3 b n κ))
    (hv : ∀ (n : Fin 8192) (ν : Fin 64), xv (ix3 (0 : Fin 1) n ν) = Av (ix3 b n ν))
    (u : Fin 1) (n : Fin 8192) (ν : Fin 64) :
    k0_pay1 (F := Ideal) xk xv xq (ix3 u n ν) = out Aq Ak Av (ix3 b n ν) := by
  rw [stored_apply, out_ix3]
  unfold outAt ktv
  refine Finset.sum_congr rfl fun κ _ => ?_
  rw [hq]
  refine congrArg _ (Finset.sum_congr rfl fun n' _ => ?_)
  rw [hk, hv]

variable (m : (ℓ : Loc nD τ sig) → Buf (Elt Ideal) ℓ) (ρ : Dev nD → PrngReg)

/-! ## Every window's block at point `t` is batch `t` -/

theorem hz : (![0, 0, 0] : Fin 3 → Nat) = fun _ => 0 := funext fun a => by fin_cases a <;> rfl

/-- The four index maps send point `t` to block `(t, 0, 0)` (decided over the sixteen points). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch a grid point works on. -/
abbrev batchOf (t : Fin cfg0.N) : Fin 16 := Fin.cast N_0 t

/-- The query block at `t` is batch `t` of the queries. -/
theorem qblock_apply (c : Dev nD) (t : Fin cfg0.N) (κ : Fin 64) (n : Fin 8192) :
    (iblk m c 0 t : Vec Ideal S1x64x8192 .f32) (ix3 (0 : Fin 1) κ n)
      = (V m c main_arg0 : S16x64x8192.Idx → EReal) (ix3 (batchOf t) κ n) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val; omega
  | ⟨1, _⟩ => show win0_0.index t (1 : Fin 3) * 64 + 1 * κ.val = κ.val; omega
  | ⟨2, _⟩ => show win0_0.index t (2 : Fin 3) * 8192 + 1 * n.val = n.val; omega

/-- The key block at `t` is batch `t` of the keys. -/
theorem kblock_apply (c : Dev nD) (t : Fin cfg0.N) (n : Fin 8192) (κ : Fin 64) :
    (iblk m c 1 t : Vec Ideal S1x8192x64 .f32) (ix3 (0 : Fin 1) n κ)
      = (V m c main_arg1 : S16x8192x64.Idx → EReal) (ix3 (batchOf t) n κ) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val; omega
  | ⟨1, _⟩ => show win0_1.index t (1 : Fin 3) * 8192 + 1 * n.val = n.val; omega
  | ⟨2, _⟩ => show win0_1.index t (2 : Fin 3) * 64 + 1 * κ.val = κ.val; omega

/-- The value block at `t` is batch `t` of the values. -/
theorem vblock_apply (c : Dev nD) (t : Fin cfg0.N) (n : Fin 8192) (ν : Fin 64) :
    (iblk m c 2 t : Vec Ideal S1x8192x64 .f32) (ix3 (0 : Fin 1) n ν)
      = (V m c main_arg2 : S16x8192x64.Idx → EReal) (ix3 (batchOf t) n ν) := by
  obtain ⟨-, -, -, -, -, -, e0, e1, e2, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * 0 = t.val; omega
  | ⟨1, _⟩ => show win0_2.index t (1 : Fin 3) * 8192 + 1 * n.val = n.val; omega
  | ⟨2, _⟩ => show win0_2.index t (2 : Fin 3) * 64 + 1 * ν.val = ν.val; omega

/-- Position `(u, n, ν)` of the result's block at `t` is position `(t, n, ν)` of the result array. -/
theorem oblock_emb (t : Fin cfg0.N) (u : Fin 1) (n : Fin 8192) (ν : Fin 64) :
    ((cfg0.win 3).blk t).view.emb (ix3 u n ν : S1x8192x64.Idx) = (ix3 (batchOf t) n ν : S16x8192x64.Idx) := by
  obtain ⟨-, -, -, -, -, -, -, -, -, e0, e1, e2⟩ := idx_facts t
  funext a
  apply Fin.ext
  match a with
  | ⟨0, _⟩ => show win0_3.index t (0 : Fin 3) * 1 + 1 * u.val = t.val; omega
  | ⟨1, _⟩ => show win0_3.index t (1 : Fin 3) * 8192 + 1 * n.val = n.val; omega
  | ⟨2, _⟩ => show win0_3.index t (2 : Fin 3) * 64 + 1 * ν.val = ν.val; omega

/-! ## What a point writes back, the cover, and the array after the run -/

/-- Point `t` writes back batch `t` of `out` of the argument arrays. -/
theorem flushed_eq (c : Dev nD) (t : Fin cfg0.N) :
    (dats m 0 c).flushed 3 t = ((cfg0.win 3).blk t).view.read (Elt Ideal)
      (out (V m c main_arg0) (V m c main_arg1) (V m c main_arg2)) := by
  rw [flushed3]
  unfold out0_3
  rw [View.canon_unit_zero hz]
  simp only [View.ld_unit_zero (S := S1x8192x64) hz, View.ld_unit_zero (S := S1x64x8192) hz]
  refine funext fun (j : S1x8192x64.Idx) => ?_
  obtain ⟨u, n, ν, rfl⟩ : ∃ (u : Fin 1) (n : Fin 8192) (ν : Fin 64), j = ix3 u n ν := ⟨j 0, j 1, j 2, eq_ix3 j⟩
  show k0_pay1 (F := Ideal) (iblk m c 1 t) (iblk m c 2 t) (iblk m c 0 t) (ix3 u n ν)
    = out (V m c main_arg0) (V m c main_arg1) (V m c main_arg2) (((cfg0.win 3).blk t).view.emb (ix3 u n ν : S1x8192x64.Idx))
  rw [oblock_emb]
  exact stored_eq_out (V m c main_arg0) (V m c main_arg1) (V m c main_arg2) (batchOf t)
    (iblk m c 1 t) (iblk m c 2 t) (iblk m c 0 t) (qblock_apply m c t) (kblock_apply m c t) (vblock_apply m c t) u n ν

/-- Every index of the result array lies in the block of the point that works on its batch. -/
theorem covered (i : S16x8192x64.Idx) :
    ∃ t : Fin cfg0.N, (cfg0.win 3).flush t = true ∧ i ∈ ((cfg0.win 3).blk t).view.set := by
  have hb : (i 0).val < 16 := (i 0).isLt
  have hn : (i 1).val < 8192 := (i 1).isLt
  have hν : (i 2).val < 64 := (i 2).isLt
  let t : Fin cfg0.N := ⟨(i 0).val, by rw [show cfg0.N = 16 from N_0]; exact hb⟩
  obtain ⟨-, -, -, -, -, -, -, -, -, e0, e1, e2⟩ := idx_facts t
  have ht : t.val = (i 0).val := rfl
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8192 ≤ (i 1).val ∧ (i 1).val < win0_3.index t (1 : Fin 3) * 8192 + 8192; omega
  | ⟨2, _⟩ => show win0_3.index t (2 : Fin 3) * 64 ≤ (i 2).val ∧ (i 2).val < win0_3.index t (2 : Fin 3) * 64 + 64; omega

/-- The result array after the run is `out` of the argument arrays. -/
theorem final (c : Dev nD) :
    (dats m 0 c).arrAt 3 cfg0.N = out (V m c main_arg0) (V m c main_arg1) (V m c main_arg2) :=
  (dats m 0 c).arrAt_eq_of_cover 3 (out (V m c main_arg0) (V m c main_arg1) (V m c main_arg2))
    (fun t _ => flushed_eq m c t) covered

/-- Every weakly fair execution of the idealized kernel ends with the result array at `out` of the arguments as
    launched, and the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  Linear attention, one batch per grid point, against two batched products.

  The kernel's grid has sixteen points; point `t` loads batch `t` of the channel-first queries `q : [16, 64, 8192]`, the keys
  and the values `k, v : [16, 8192, 64]`, forms `kᵀ v` (a `64 × 64` matrix, the sequence axis summed) on the matrix unit,
  multiplies the queries against it (the channel axis summed) and writes batch `t` of the result. The reference forms
  the same two products for all batches at once. On the extended reals a change of float format is the identity and a
  product into a zero accumulator is the plain sum of products, so both programs compute
  `out[b, n, ν] = ∑ κ, q[b, κ, n] · ∑ n', k[b, n', κ] · v[b, n', ν]`, with the sums nested the same way: the two sides
  agree term by term, and neither finiteness of the inputs nor any law of the extended reals beyond `0 + x = x` is used.

  `Spec` states that function; `RefValue` reads the reference's two products at an index and finds it; `Payload` reads
  the value the kernel body stores at an index; `Blocks` passes from the sixteen blocks to the whole array. Here the
  claims are assembled: the three runs, the idealization (which rewrote nothing), and the equality of results.
-/
import proofs.«175009_j2130303779058_1_alg».proof.Defs
import proofs.«175009_j2130303779058_1_alg».proof.Proof.Gen.Kernel
import proofs.«175009_j2130303779058_1_alg».proof.Proof.Gen.Kernel.Skeleton
import proofs.«175009_j2130303779058_1_alg».proof.Proof.Gen.Kernel.Launch
import proofs.«175009_j2130303779058_1_alg».proof.Proof.Gen.Kernel.Points
import proofs.«175009_j2130303779058_1_alg».proof.Proof.Gen.Kernel.Frame
import proofs.«175009_j2130303779058_1_alg».proof.Proof.Gen.KernelIdeal
import proofs.«175009_j2130303779058_1_alg».proof.Proof.Gen.KernelIdeal.Skeleton
import proofs.«175009_j2130303779058_1_alg».proof.Proof.Gen.KernelIdeal.Launch
import proofs.«175009_j2130303779058_1_alg».proof.Proof.Gen.KernelIdeal.Points
import proofs.«175009_j2130303779058_1_alg».proof.Proof.Gen.KernelIdeal.Frame
import proofs.«175009_j2130303779058_1_alg».proof.Proof.Gen.ReferenceIdeal
import proofs.«175009_j2130303779058_1_alg».proof.Proof.Gen.Pre_finite_inputs
import proofs.«175009_j2130303779058_1_alg».proof.Proof.Gen.KernelIdeal.Value
import proofs.«175009_j2130303779058_1_alg».proof.Proof.Gen.ReferenceIdeal.Run
import proofs.«175009_j2130303779058_1_alg».proof.Proof.Gen.ReferenceIdeal.Read
import proofs.«175009_j2130303779058_1_alg».proof.Proof.Spec
import proofs.«175009_j2130303779058_1_alg».proof.Proof.RefValue
import proofs.«175009_j2130303779058_1_alg».proof.Proof.Payload
import proofs.«175009_j2130303779058_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is two host operations; its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From arguments that agree, the kernel's result array ends at `out q k v` (the blocks assembled) and the
    reference's at its two products of the same arrays, which are `out q k v` index by index. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
